-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x128 .f32) (main_arg6 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S131072x128 .f32) (main_arg1 : FVec F S131072x128 .f32) (main_arg2 : FVec F S131072x128 .f32) (main_arg3 : FVec F S512x128 .f32) (main_arg4 : FVec F S512 .f32) (main_arg5 : FVec F S512x128 .f32) (main_arg6 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S131072x128 : Shape := ⟨2, ![131072, 128]⟩
abbrev S512x128 : Shape := ⟨2, ![512, 128]⟩
abbrev S512 : Shape := ⟨1, ![512]⟩
abbrev S128x512 : Shape := ⟨2, ![128, 512]⟩
abbrev S1x512 : Shape := ⟨2, ![1, 512]⟩
abbrev S2048x128 : Shape := ⟨2, ![2048, 128]⟩
abbrev S2048x512 : Shape := ⟨2, ![2048, 512]⟩

abbrev nBuf : Space → Nat
  | .hbm => 15
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S512, .f32⟩
  | .hbm, ⟨7, _⟩ => ⟨S128x512, .f32⟩
  | .hbm, ⟨8, _⟩ => ⟨S128x512, .bf16⟩
  | .hbm, ⟨9, _⟩ => ⟨S128x512, .f32⟩
  | .hbm, ⟨10, _⟩ => ⟨S128x512, .bf16⟩
  | .hbm, ⟨11, _⟩ => ⟨S512, .f32⟩
  | .hbm, ⟨12, _⟩ => ⟨S1x512, .f32⟩
  | .hbm, ⟨13, _⟩ => ⟨S131072x128, .f32⟩
  | .hbm, ⟨14, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x128_S128x512_1_0 : S512x128.Transposes [1, 0] S128x512
  bitsLt_bf16_f32 : FTy.bits .bf16 < FTy.bits .f32
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S512 : Shape := ⟨1, ![512]⟩
abbrev S128x512 : Shape := ⟨2, ![128, 512]⟩
abbrev S131072x512 : Shape := ⟨2, ![131072, 512]⟩
abbrev S1x512 : Shape := ⟨2, ![1, 512]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S512, .f32⟩
  | .hbm, ⟨7, _⟩ => ⟨S128x512, .f32⟩
  | .hbm, ⟨8, _⟩ => ⟨S131072x512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S128x512, .f32⟩
  | .hbm, ⟨13, _⟩ => ⟨S131072x512, .f32⟩
  | .hbm, ⟨14, _⟩ => ⟨S131072x512, .f32⟩
  | .hbm, ⟨15, _⟩ => ⟨S1x512, .f32⟩
  | .hbm, ⟨16, _⟩ => ⟨S131072x512, .f32⟩
  | .hbm, ⟨17, _⟩ => ⟨S131072x512, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S_, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S_, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.GatePayload.lean ====
/-
  The kernel body's gate block at an index.

  At a grid point the body holds a 2048-row block of `x` and of `h`, the two 128×512 weight matrices (already
  transposed) and the 1×512 bias row. Its first payload is the 2048×512 block of gate pre-activations: the two
  matrix products into zero accumulators, added, plus the bias row broadcast down the rows. Read at row `p` and
  column `j` at the ideal values this is

      (∑ₖ X[p,k]·A[k,j] + ∑ₖ H[p,k]·B[k,j]) + b[0,j]:

  a product into a zero accumulator is the plain sum over the contracted axis, the narrowing of the operands to the
  half-width format changes no value, a cast to the same shape is the identity, and the broadcast row is read at
  its column.
-/
import proofs.«146025_j60988535603585_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GatePayload

open Cert.KernelIdeal Cert.KernelIdeal.Gen Idealize.ShloMosaic Idealize.ShloMosaic.ValueIdx

/-! ## The product's operand indices: (row, k) on the left, (k, column) on the right -/

theorem lhs_axis0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_axis1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs_axis0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs_axis1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- A 2048×128 by 128×512 product into the zero accumulator, at (p, j): the sum over the 128 contracted places. -/
theorem product_apply (A : FVec Ideal S2048x128 .bf16) (B : FVec Ideal S128x512 .bf16) (p : Fin 2048) (j : Fin 512) :
    matmul dot_S2048x128_S128x512_S2048x512_1_0_0_1_n_n none A B (constant S2048x512 .f32 0x00000000#32) (ix2 p j)
      = ∑ k : Fin 128, A (ix2 p k) * B (ix2 k j) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p j) ((contrEquiv1 dot_S2048x128_S128x512_S2048x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2048x128_S128x512_S2048x512_1_0_0_1_n_n.rhsIdx (ix2 p j) ((contrEquiv1 dot_S2048x128_S128x512_S2048x512_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- THE GATE BLOCK AT AN INDEX: both products summed, plus the bias row at the column. -/
theorem gates_apply (X H : Vec Ideal S2048x128 .f32) (A B : Vec Ideal S128x512 .bf16) (b : Vec Ideal S1x512 .f32)
    (p : Fin 2048) (j : Fin 512) :
    k0_pay1 X H A B b (ix2 p j)
      = ((∑ k : Fin 128, X (ix2 p k) * A (ix2 k j)) + ∑ k : Fin 128, H (ix2 p k) * B (ix2 k j)) + b (ix2 (0 : Fin 1) j) := by
  refine (show k0_pay1 X H A B b (ix2 p j)
      = (matmul dot_S2048x128_S128x512_S2048x512_1_0_0_1_n_n none (truncf .bf16 X bitsLt_bf16_f32) (shapeCast S128x512 A shapeCasts_S128x512_S128x512) (constant S2048x512 .f32 0x00000000#32) (ix2 p j)
          + matmul dot_S2048x128_S128x512_S2048x512_1_0_0_1_n_n none (truncf .bf16 H bitsLt_bf16_f32) (shapeCast S128x512 B shapeCasts_S128x512_S128x512) (constant S2048x512 .f32 0x00000000#32) (ix2 p j))
        + broadcastTo S2048x512 (shapeCast S1x512 b shapeCasts_S1x512_S1x512) broadcasts_S1x512_S2048x512 (ix2 p j) from rfl).trans ?_
  rw [shapeCast_self, shapeCast_self, shapeCast_self, product_apply, product_apply, broadcastTo_1b_ab_apply]
  rfl

end Cert.KernelIdeal.GatePayload

end
-- ==== Proof.CellSpec.lean ====
/-
  One step of an LSTM cell as plain mathematics on the extended reals, with no program in sight.

  For a batch row `r` and a gate column `j` (the 512 columns are four gates of 128 columns each: input, forget,
  candidate, output) the pre-activation is

      gate r j = (∑ₖ x[r,k]·Wx[j,k] + ∑ₖ h[r,k]·Wh[j,k]) + (bx[j] + bh[j]),

  and for an output position `i = (r, q)`

      cell i   = σ(gate r (128 + q)) · c[i] + σ(gate r q) · tanh (gate r (256 + q)),
      hidden i = σ(gate r (384 + q)) · tanh (cell i),

  where σ(t) = 1 / (1 + e^(−t)) with the usual limits at ±∞. The one law recorded here is that the four summands
  of a gate may be grouped either way: addition of extended reals is commutative and associative everywhere, the
  infinities included, so no finiteness of the inputs is asked for.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- The single-precision word of one denotes the extended real `1`. -/
theorem ofBits_one_f32 : Ideal.ofBits .f32 0x3F800000#32 = 1 := by
  simp [Ideal.ofBits, Ideal.ieee, -EReal.coe_mul]; norm_num

/-- Column `q` of gate `g` among the 512 gate columns (`g` = 0 input, 1 forget, 2 candidate, 3 output). -/
abbrev col (g : Fin 4) (q : Fin 128) : Fin 512 :=
  ⟨q.val + 128 * g.val, by have := g.isLt; have := q.isLt; omega⟩

/-- The sigmoid written out with a negation, an exponential, a sum and a quotient — each read on the host's side,
    the two ones as single-precision words — is the sigmoid: `1 / (1 + e^(−t))`, whose corner values at `±∞` are
    those of the quotient and the exponential. -/
theorem sigmoid_expanded (t : EReal) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  simp only [Ideal.ofBits_def, ofBits_one_f32]
  rfl

/-- Four summands grouped as (first + third) + (second + fourth), from the left-nested order. -/
theorem add_regroup (a b c d : EReal) : ((a + b) + c) + d = (a + c) + (b + d) := by
  rw [add_assoc, add_add_add_comm]

section
variable (x h c : (⟨2, ![131072, 128]⟩ : Shape).Idx → EReal) (Wx Wh : (⟨2, ![512, 128]⟩ : Shape).Idx → EReal)
  (bx bh : (⟨1, ![512]⟩ : Shape).Idx → EReal)

/-- Pre-activation of gate column `j` on batch row `r`: the two projections, then the two biases. -/
def gate (r : Fin 131072) (j : Fin 512) : EReal :=
  ((∑ k : Fin 128, x (ix2 r k) * Wx (ix2 j k)) + ∑ k : Fin 128, h (ix2 r k) * Wh (ix2 j k))
    + (bx (ix1 j) + bh (ix1 j))

/-- The same number with each bias added right after its own projection. -/
theorem gate_interleaved (r : Fin 131072) (j : Fin 512) :
    (((∑ k : Fin 128, x (ix2 r k) * Wx (ix2 j k)) + bx (ix1 j)) + ∑ k : Fin 128, h (ix2 r k) * Wh (ix2 j k))
      + bh (ix1 j) = gate x h Wx Wh bx bh r j := by
  unfold gate; exact add_regroup _ _ _ _

/-- The new cell state at position `i = (r, q)`: forget gate times the old state plus input gate times candidate. -/
def cell (i : (⟨2, ![131072, 128]⟩ : Shape).Idx) : EReal :=
  Ideal.logistic (gate x h Wx Wh bx bh (i 0) (col 1 (i 1))) * c i
    + Ideal.logistic (gate x h Wx Wh bx bh (i 0) (col 0 (i 1))) * Ideal.tanh (gate x h Wx Wh bx bh (i 0) (col 2 (i 1)))

/-- The new hidden state at position `i = (r, q)`: output gate times the squashed new cell state. -/
def hidden (i : (⟨2, ![131072, 128]⟩ : Shape).Idx) : EReal :=
  Ideal.logistic (gate x h Wx Wh bx bh (i 0) (col 3 (i 1))) * Ideal.tanh (cell x h c Wx Wh bx bh i)

end

end Cert.LstmCell

end
-- ==== Proof.PointValue.lean ====
/-
  One grid point's two output blocks, entry by entry, are the cell step of CellSpec.

  Everything here is stated over plain variables: the six blocks the body loads at a point (a 2048-row block of
  each of `x`, `h`, `c`; the two transposed weight matrices; the bias row) and the whole argument arrays, tied
  together only by hypotheses that say which array entry each block entry is: block row `p` is array row `r`.
  Under them the gate block at `(p, q + 128·g)` is the specification's gate at row `r` and that column, and so
  the block the body stores for the cell state (forget·c + input·candidate) and for the hidden state
  (output·tanh of it) hold, at `(p, q)`, the specification's `cell` and `hidden` at `(r, q)`.
-/
import proofs.«146025_j60988535603585_1_alg».proof.Proof.Gen.KernelIdeal.Value
import proofs.«146025_j60988535603585_1_alg».proof.Proof.GatePayload
import proofs.«146025_j60988535603585_1_alg».proof.Proof.CellSpec

noncomputable section

namespace Cert.KernelIdeal.PointValue

open Cert.KernelIdeal Cert.KernelIdeal.Gen Cert.KernelIdeal.Value Cert.KernelIdeal.GatePayload Cert.LstmCell
open Idealize.ShloMosaic Idealize.ShloMosaic.ValueIdx

theorem zero_offsets : (![0, 0] : Fin 2 → Nat) = fun _ => 0 := funext fun a => by fin_cases a <;> rfl

section
variable (x h c : FVec Ideal S131072x128 .f32) (Wx Wh : FVec Ideal S512x128 .f32) (bx bh : FVec Ideal S512 .f32)
variable (X H C : Vec Ideal S2048x128 .f32) (A B : Vec Ideal S128x512 .bf16) (b : Vec Ideal S1x512 .f32)
variable (p : Fin 2048) (q : Fin 128) (r : Fin 131072)

/-- The gate block, at the entry of row `p` whose column is `q + 128·g`, is the gate of array row `r`. -/
theorem gate_at (g : Fin 4)
    (hX : ∀ k : Fin 128, X (ix2 p k) = x (ix2 r k)) (hH : ∀ k : Fin 128, H (ix2 p k) = h (ix2 r k))
    (hA : ∀ (k : Fin 128) (j : Fin 512), A (ix2 k j) = Wx (ix2 j k)) (hB : ∀ (k : Fin 128) (j : Fin 512), B (ix2 k j) = Wh (ix2 j k))
    (hb : ∀ j : Fin 512, b (ix2 (0 : Fin 1) j) = bx (ix1 j) + bh (ix1 j))
    (j' : S2048x512.Idx) (h0 : (j' 0).val = p.val) (h1 : (j' 1).val = q.val + 128 * g.val) :
    k0_pay1 X H A B b j' = gate x h Wx Wh bx bh r (col g q) := by
  have e : j' = ix2 p (col g q) := funext fun a => Fin.ext (by
    match a with
    | ⟨0, _⟩ => exact h0
    | ⟨1, _⟩ => exact h1)
  rw [e, gates_apply]
  unfold gate
  simp only [hX, hH, hA, hB, hb]

/-- THE CELL-STATE BLOCK at `(p, q)` is the specification's cell state at `(r, q)`. -/
theorem cell_point
    (hX : ∀ k : Fin 128, X (ix2 p k) = x (ix2 r k)) (hH : ∀ k : Fin 128, H (ix2 p k) = h (ix2 r k))
    (hC : C (ix2 p q) = c (ix2 r q))
    (hA : ∀ (k : Fin 128) (j : Fin 512), A (ix2 k j) = Wx (ix2 j k)) (hB : ∀ (k : Fin 128) (j : Fin 512), B (ix2 k j) = Wh (ix2 j k))
    (hb : ∀ j : Fin 512, b (ix2 (0 : Fin 1) j) = bx (ix1 j) + bh (ix1 j)) :
    out0_7 X H C A B b (ix2 p q) = cell x h c Wx Wh bx bh (ix2 r q) := by
  unfold out0_7
  simp only [View.ld_unit_zero (S := S2048x128) zero_offsets, View.ld_unit_zero (S := S128x512) zero_offsets,
    View.ld_unit_zero (S := S1x512) zero_offsets]
  rw [canon7_eq]
  show (Ideal.logistic (k0_pay1 X H A B b (ix7_0 (ix2 p q))) * C (ix7_1 (ix2 p q))
      + Ideal.logistic (k0_pay1 X H A B b (ix7_2 (ix2 p q))) * Ideal.tanh (k0_pay1 X H A B b (ix7_3 (ix2 p q))) : EReal) = _
  rw [gate_at x h Wx Wh bx bh X H A B b p q r 1 hX hH hA hB hb (ix7_0 (ix2 p q)) rfl rfl,
    gate_at x h Wx Wh bx bh X H A B b p q r 0 hX hH hA hB hb (ix7_2 (ix2 p q)) rfl rfl,
    gate_at x h Wx Wh bx bh X H A B b p q r 2 hX hH hA hB hb (ix7_3 (ix2 p q)) rfl rfl,
    show C (ix7_1 (ix2 p q)) = c (ix2 r q) from
      (congrArg C (funext fun a => by match a with | ⟨0, _⟩ => rfl | ⟨1, _⟩ => rfl)).trans hC]
  rfl

/-- THE HIDDEN-STATE BLOCK at `(p, q)` is the specification's hidden state at `(r, q)`. -/
theorem hidden_point
    (hX : ∀ k : Fin 128, X (ix2 p k) = x (ix2 r k)) (hH : ∀ k : Fin 128, H (ix2 p k) = h (ix2 r k))
    (hC : C (ix2 p q) = c (ix2 r q))
    (hA : ∀ (k : Fin 128) (j : Fin 512), A (ix2 k j) = Wx (ix2 j k)) (hB : ∀ (k : Fin 128) (j : Fin 512), B (ix2 k j) = Wh (ix2 j k))
    (hb : ∀ j : Fin 512, b (ix2 (0 : Fin 1) j) = bx (ix1 j) + bh (ix1 j)) :
    out0_6 X H C A B b (ix2 p q) = hidden x h c Wx Wh bx bh (ix2 r q) := by
  unfold out0_6
  simp only [View.ld_unit_zero (S := S2048x128) zero_offsets, View.ld_unit_zero (S := S128x512) zero_offsets,
    View.ld_unit_zero (S := S1x512) zero_offsets]
  rw [canon6_eq]
  show (Ideal.logistic (k0_pay1 X H A B b (ix6_0 (ix2 p q)))
      * Ideal.tanh (Ideal.logistic (k0_pay1 X H A B b (ix6_1 (ix2 p q))) * C (ix6_2 (ix2 p q))
        + Ideal.logistic (k0_pay1 X H A B b (ix6_3 (ix2 p q))) * Ideal.tanh (k0_pay1 X H A B b (ix6_4 (ix2 p q)))) : EReal) = _
  rw [gate_at x h Wx Wh bx bh X H A B b p q r 3 hX hH hA hB hb (ix6_0 (ix2 p q)) rfl rfl,
    gate_at x h Wx Wh bx bh X H A B b p q r 1 hX hH hA hB hb (ix6_1 (ix2 p q)) rfl rfl,
    gate_at x h Wx Wh bx bh X H A B b p q r 0 hX hH hA hB hb (ix6_3 (ix2 p q)) rfl rfl,
    gate_at x h Wx Wh bx bh X H A B b p q r 2 hX hH hA hB hb (ix6_4 (ix2 p q)) rfl rfl,
    show C (ix6_2 (ix2 p q)) = c (ix2 r q) from
      (congrArg C (funext fun a => by match a with | ⟨0, _⟩ => rfl | ⟨1, _⟩ => rfl)).trans hC]
  rfl

end

end Cert.KernelIdeal.PointValue

end
-- ==== Proof.WindowArrays.lean ====
/-
  What the region finds in the three arrays the host writes before the call.

  Before the kernel is launched the host transposes each weight matrix (512×128 to 128×512) and narrows it to the
  half-width format, and adds the two bias vectors and lays the sum out as one row. These three arrays are what
  the weight windows and the bias window stage; here each is named as that function of the program's arguments.
-/
import proofs.«146025_j60988535603585_1_alg».proof.Proof.Gen.KernelIdeal.Frame
import Idealize.ShloMosaic.Lib.StableHlo.Run
import Idealize.ShloMosaic.PureOps.Ideal

noncomputable section

namespace Cert.KernelIdeal.WindowArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The first weight window's array: `Wx` transposed (then narrowed, which changes no value). -/
theorem wx_array (c : Dev nD) :
    @Eq (FVec Ideal S128x512 .bf16) (V m c main_v1)
      (truncf .bf16 (transpose S128x512 [1, 0] (m ((c : Thread nD τ).loc main_arg3) : FVec Ideal S512x128 .f32) transposes_S512x128_S128x512_1_0) bitsLt_bf16_f32) := by
  dsimp only [Gen.V, Gen.hostOps0]; after_results <;> rfl

/-- The second weight window's array: `Wh` transposed (then narrowed). -/
theorem wh_array (c : Dev nD) :
    @Eq (FVec Ideal S128x512 .bf16) (V m c main_v3)
      (truncf .bf16 (transpose S128x512 [1, 0] (m ((c : Thread nD τ).loc main_arg5) : FVec Ideal S512x128 .f32) transposes_S512x128_S128x512_1_0) bitsLt_bf16_f32) := by
  dsimp only [Gen.V, Gen.hostOps0]; after_results <;> rfl

/-- The bias window's array: `bx + bh` as one row of 512. -/
theorem bias_array (c : Dev nD) :
    @Eq (FVec Ideal S1x512 .f32) (V m c main_v5)
      (shapeCast S1x512 (addf (m ((c : Thread nD τ).loc main_arg4) : FVec Ideal S512 .f32) (m ((c : Thread nD τ).loc main_arg6) : FVec Ideal S512 .f32)) shapeCasts_S512_S1x512) := by
  dsimp only [Gen.V, Gen.hostOps0]; after_results <;> rfl

end Cert.KernelIdeal.WindowArrays

end
-- ==== Proof.CellValue.lean ====
/-
  From the blocks to the whole arrays: after the kernel's run the two result arrays hold the cell step of CellSpec.

  The grid has 64 points; point `t` stages rows `2048·t … 2048·t + 2047` of `x`, `h` and `c`, the whole of each
  transposed weight matrix and of the bias row, and writes back the same rows of the two results. So an entry
  `(p, q)` of a row block sits at array position `(2048·t + p, q)`, the weight and bias blocks are their arrays,
  and every array position `(r, q)` is written by exactly the point `r / 2048`. With the per-point lemmas this
  makes each flushed block the restriction of one whole-array function, and the blocks cover the array.
  The weight arrays are the arguments transposed, the bias row is the sum of the two bias arguments.
-/
import proofs.«146025_j60988535603585_1_alg».proof.Proof.Gen.KernelIdeal.Value
import proofs.«146025_j60988535603585_1_alg».proof.Proof.PointValue
import proofs.«146025_j60988535603585_1_alg».proof.Proof.WindowArrays
import proofs.«146025_j60988535603585_1_alg».proof.Proof.CellSpec
import Idealize.ShloMosaic.Lib.ValueLayout

set_option maxRecDepth 16384

noncomputable section

namespace Cert.KernelIdeal.CellValue

open Cert.KernelIdeal Cert.KernelIdeal.Gen Cert.KernelIdeal.Value Cert.KernelIdeal.PointValue Cert.KernelIdeal.WindowArrays Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The seven arguments as arrays of extended reals, and the two results as functions of them -/

abbrev xArr (c : Dev nD) : FVec Ideal S131072x128 .f32 := m ((c : Thread nD τ).loc main_arg0)
abbrev hArr (c : Dev nD) : FVec Ideal S131072x128 .f32 := m ((c : Thread nD τ).loc main_arg1)
abbrev cArr (c : Dev nD) : FVec Ideal S131072x128 .f32 := m ((c : Thread nD τ).loc main_arg2)
abbrev wxArr (c : Dev nD) : FVec Ideal S512x128 .f32 := m ((c : Thread nD τ).loc main_arg3)
abbrev bxArr (c : Dev nD) : FVec Ideal S512 .f32 := m ((c : Thread nD τ).loc main_arg4)
abbrev whArr (c : Dev nD) : FVec Ideal S512x128 .f32 := m ((c : Thread nD τ).loc main_arg5)
abbrev bhArr (c : Dev nD) : FVec Ideal S512 .f32 := m ((c : Thread nD τ).loc main_arg6)

/-- The new cell state of the whole batch. -/
def cellOut (c : Dev nD) : FVec Ideal S131072x128 .f32 :=
  cell (xArr m c) (hArr m c) (cArr m c) (wxArr m c) (whArr m c) (bxArr m c) (bhArr m c)
/-- The new hidden state of the whole batch. -/
def hiddenOut (c : Dev nD) : FVec Ideal S131072x128 .f32 :=
  hidden (xArr m c) (hArr m c) (cArr m c) (wxArr m c) (whArr m c) (bxArr m c) (bhArr m c)

/-! ## Which block each window holds at a point -/

/-- The row windows (inputs 0, 1, 2 and both outputs) are at block row `t`, column block 0; the weight and bias
    windows never move. Decided over the 64 points. -/
theorem block_indices : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_7.index t (0 : Fin 2) ∧ win0_6.index t (1 : Fin 2) = 0
    ∧ win0_7.index t (1 : Fin 2) = 0
    ∧ win0_7.index t (0 : Fin 2) ≤ 63 :=
  (by decide +kernel : ∀ t : Fin grid0.N, _)

/-- Every block row below 64 is some point's, for either output. -/
theorem block_rows_onto : ∀ q : Fin 64, ∃ t : Fin cfg0.N, win0_7.index t = ![q.val, 0] ∧ win0_6.index t = ![q.val, 0] :=
  (by decide +kernel : ∀ q : Fin 64, ∃ t : Fin grid0.N, win0_7.index t = ![q.val, 0] ∧ win0_6.index t = ![q.val, 0])

/-! ## The staged blocks' entries as entries of the arguments -/

section Blocks
variable (c : Dev nD) (t : Fin cfg0.N)

/-- The array row under row `p` of point `t`'s row blocks. -/
def row (p : Fin 2048) : Fin 131072 :=
  ⟨win0_7.index t (0 : Fin 2) * 2048 + p.val, by
    have hb := (block_indices t).2.2.2.2.2.2.2.2.2.2.2.2.2.2.2
    have := p.isLt; omega⟩

/-- The output blocks' entry (p, q) sits at array position (row p, q). -/
theorem out7_position (p : Fin 2048) (q : Fin 128) : ((cfg0.win 7).blk t).view.emb (ix2 p q) = ix2 (row t p) q := by
  have e71 := (block_indices t).2.2.2.2.2.2.2.2.2.2.2.2.2.2.1
  refine funext fun a => Fin.ext ?_
  match a with
  | ⟨0, _⟩ => show win0_7.index t (0 : Fin 2) * 2048 + 1 * p.val = win0_7.index t (0 : Fin 2) * 2048 + p.val; omega
  | ⟨1, _⟩ => show win0_7.index t (1 : Fin 2) * 128 + 1 * q.val = q.val; omega

theorem out6_position (p : Fin 2048) (q : Fin 128) : ((cfg0.win 6).blk t).view.emb (ix2 p q) = ix2 (row t p) q := by
  obtain ⟨-, -, -, -, -, -, -, -, -, -, -, -, e60, e61, -⟩ := block_indices t
  refine funext fun a => Fin.ext ?_
  match a with
  | ⟨0, _⟩ => show win0_6.index t (0 : Fin 2) * 2048 + 1 * p.val = win0_7.index t (0 : Fin 2) * 2048 + p.val; omega
  | ⟨1, _⟩ => show win0_6.index t (1 : Fin 2) * 128 + 1 * q.val = q.val; omega

/-- A row-block entry of `x`: array row `row p`, same column. -/
theorem x_block (p : Fin 2048) (k : Fin 128) : iblk m c 0 t (ix2 p k) = xArr m c (ix2 (row t p) k) := by
  obtain ⟨e00, e01, -⟩ := block_indices t
  show V m c main_arg0 (((cfg0.win 0).blk t).view.emb (ix2 p k)) = _
  rw [V_main_arg0]
  refine congrArg (xArr m c) (funext fun a => Fin.ext ?_)
  match a with
  | ⟨0, _⟩ => show win0_0.index t (0 : Fin 2) * 2048 + 1 * p.val = win0_7.index t (0 : Fin 2) * 2048 + p.val; omega
  | ⟨1, _⟩ => show win0_0.index t (1 : Fin 2) * 128 + 1 * k.val = k.val; omega

theorem h_block (p : Fin 2048) (k : Fin 128) : iblk m c 1 t (ix2 p k) = hArr m c (ix2 (row t p) k) := by
  obtain ⟨-, -, e10, e11, -⟩ := block_indices t
  show V m c main_arg1 (((cfg0.win 1).blk t).view.emb (ix2 p k)) = _
  rw [V_main_arg1]
  refine congrArg (hArr m c) (funext fun a => Fin.ext ?_)
  match a with
  | ⟨0, _⟩ => show win0_1.index t (0 : Fin 2) * 2048 + 1 * p.val = win0_7.index t (0 : Fin 2) * 2048 + p.val; omega
  | ⟨1, _⟩ => show win0_1.index t (1 : Fin 2) * 128 + 1 * k.val = k.val; omega

theorem c_block (p : Fin 2048) (q : Fin 128) : iblk m c 2 t (ix2 p q) = cArr m c (ix2 (row t p) q) := by
  obtain ⟨-, -, -, -, e20, e21, -⟩ := block_indices t
  show V m c main_arg2 (((cfg0.win 2).blk t).view.emb (ix2 p q)) = _
  rw [V_main_arg2]
  refine congrArg (cArr m c) (funext fun a => Fin.ext ?_)
  match a with
  | ⟨0, _⟩ => show win0_2.index t (0 : Fin 2) * 2048 + 1 * p.val = win0_7.index t (0 : Fin 2) * 2048 + p.val; omega
  | ⟨1, _⟩ => show win0_2.index t (1 : Fin 2) * 128 + 1 * q.val = q.val; omega

/-- The first weight block is `Wx` transposed. -/
theorem wx_block (k : Fin 128) (j : Fin 512) : iblk m c 3 t (ix2 k j) = wxArr m c (ix2 j k) := by
  obtain ⟨-, -, -, -, -, -, e30, e31, -⟩ := block_indices t
  show V m c main_v1 (((cfg0.win 3).blk t).view.emb (ix2 k j)) = _
  have e : ((cfg0.win 3).blk t).view.emb (ix2 k j) = ix2 k j := funext fun a => Fin.ext (by
    match a with
    | ⟨0, _⟩ => show win0_3.index t (0 : Fin 2) * 128 + 1 * k.val = k.val; omega
    | ⟨1, _⟩ => show win0_3.index t (1 : Fin 2) * 512 + 1 * j.val = j.val; omega)
  rw [e]
  refine (congrFun (wx_array m c) (ix2 k j)).trans ?_
  exact transpose_ix2_apply (wxArr m c) transposes_S512x128_S128x512_1_0 k j

/-- The second weight block is `Wh` transposed. -/
theorem wh_block (k : Fin 128) (j : Fin 512) : iblk m c 4 t (ix2 k j) = whArr m c (ix2 j k) := by
  obtain ⟨-, -, -, -, -, -, -, -, e40, e41, -⟩ := block_indices t
  show V m c main_v3 (((cfg0.win 4).blk t).view.emb (ix2 k j)) = _
  have e : ((cfg0.win 4).blk t).view.emb (ix2 k j) = ix2 k j := funext fun a => Fin.ext (by
    match a with
    | ⟨0, _⟩ => show win0_4.index t (0 : Fin 2) * 128 + 1 * k.val = k.val; omega
    | ⟨1, _⟩ => show win0_4.index t (1 : Fin 2) * 512 + 1 * j.val = j.val; omega)
  rw [e]
  refine (congrFun (wh_array m c) (ix2 k j)).trans ?_
  exact transpose_ix2_apply (whArr m c) transposes_S512x128_S128x512_1_0 k j

/-- The bias block's one row is `bx + bh`. -/
theorem bias_block (j : Fin 512) : iblk m c 5 t (ix2 (0 : Fin 1) j) = bxArr m c (ix1 j) + bhArr m c (ix1 j) := by
  obtain ⟨-, -, -, -, -, -, -, -, -, -, e50, e51, -⟩ := block_indices t
  show V m c main_v5 (((cfg0.win 5).blk t).view.emb (ix2 (0 : Fin 1) j)) = _
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 512 + 1 * j.val = j.val; omega)
  rw [e]
  refine (congrFun (bias_array m c) (ix2 (0 : Fin 1) j)).trans ?_
  exact shapeCast_a_1a_apply (addf (bxArr m c) (bhArr m c)) shapeCasts_S512_S1x512 (0 : Fin 1) j

end Blocks

/-! ## What each point writes back -/

/-- Point `t` writes back block `t` of the new cell state. -/
theorem flushed_cell (c : Dev nD) (t : Fin cfg0.N) :
    (dats m 0 c).flushed 7 t = ((cfg0.win 7).blk t).view.read (Elt Ideal) (cellOut m c) := by
  rw [flushed7]
  funext j
  obtain ⟨p, q, rfl⟩ : ∃ (p : Fin 2048) (q : Fin 128), j = ix2 p q := ⟨j 0, j 1, eq_ix2 j⟩
  show out0_7 (iblk m c 0 t) (iblk m c 1 t) (iblk m c 2 t) (iblk m c 3 t) (iblk m c 4 t) (iblk m c 5 t) (ix2 p q)
    = cellOut m c (((cfg0.win 7).blk t).view.emb (ix2 p q))
  rw [out7_position]
  unfold cellOut
  exact cell_point (xArr m c) (hArr m c) (cArr m c) (wxArr m c) (whArr m c) (bxArr m c) (bhArr m c)
    (iblk m c 0 t) (iblk m c 1 t) (iblk m c 2 t) (iblk m c 3 t) (iblk m c 4 t) (iblk m c 5 t) p q (row t p)
    (fun k => x_block m c t p k) (fun k => h_block m c t p k) (c_block m c t p q) (fun k j' => wx_block m c t k j')
    (fun k j' => wh_block m c t k j') (fun j' => bias_block m c t j')

/-- Point `t` writes back block `t` of the new hidden state. -/
theorem flushed_hidden (c : Dev nD) (t : Fin cfg0.N) :
    (dats m 0 c).flushed 6 t = ((cfg0.win 6).blk t).view.read (Elt Ideal) (hiddenOut m c) := by
  rw [flushed6]
  funext j
  obtain ⟨p, q, rfl⟩ : ∃ (p : Fin 2048) (q : Fin 128), j = ix2 p q := ⟨j 0, j 1, eq_ix2 j⟩
  show out0_6 (iblk m c 0 t) (iblk m c 1 t) (iblk m c 2 t) (iblk m c 3 t) (iblk m c 4 t) (iblk m c 5 t) (ix2 p q)
    = hiddenOut m c (((cfg0.win 6).blk t).view.emb (ix2 p q))
  rw [out6_position]
  unfold hiddenOut
  exact hidden_point (xArr m c) (hArr m c) (cArr m c) (wxArr m c) (whArr m c) (bxArr m c) (bhArr m c)
    (iblk m c 0 t) (iblk m c 1 t) (iblk m c 2 t) (iblk m c 3 t) (iblk m c 4 t) (iblk m c 5 t) p q (row t p)
    (fun k => x_block m c t p k) (fun k => h_block m c t p k) (c_block m c t p q) (fun k j' => wx_block m c t k j')
    (fun k j' => wh_block m c t k j') (fun j' => bias_block m c t j')

/-! ## The blocks cover the arrays -/

theorem mem_block7 (t : Fin cfg0.N) (i : S131072x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v6_1).slice (win0_7.rect t)).set ↔ _
  rw [View.set_slice_whole, Rect.mem_set_unit]
  exact Iff.rfl

theorem mem_block6 (t : Fin cfg0.N) (i : S131072x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v6_0).slice (win0_6.rect t)).set ↔ _
  rw [View.set_slice_whole, Rect.mem_set_unit]
  exact Iff.rfl

/-- Array row `r` lies in the block of the point at block row `r / 2048`. -/
theorem cover7 (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  obtain ⟨t, ht, -⟩ := block_rows_onto ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_block7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

theorem cover6 (i : S131072x128.Idx) : ∃ t : Fin cfg0.N, (cfg0.win 6).flush t = true ∧ i ∈ ((cfg0.win 6).blk t).view.set := by
  have hi0 : (i 0).val < 131072 := (i 0).isLt
  have hi1 : (i 1).val < 128 := (i 1).isLt
  obtain ⟨t, -, ht⟩ := block_rows_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_block6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 128 ≤ (i 1).val ∧ (i 1).val < win0_6.index t (1 : Fin 2) * 128 + 128; omega

/-! ## The arrays after the run, and the run -/

theorem final_cell (c : Dev nD) : (dats m 0 c).arrAt 7 cfg0.N = cellOut m c :=
  (dats m 0 c).arrAt_eq_of_cover 7 _ (fun t _ => flushed_cell m c t) cover7

theorem final_hidden (c : Dev nD) : (dats m 0 c).arrAt 6 cfg0.N = hiddenOut m c :=
  (dats m 0 c).arrAt_eq_of_cover 6 _ (fun t _ => flushed_hidden m c t) cover6

/-- Every weakly fair execution of the kernel program ends with the first result at the new hidden state, the
    second at the new cell state, and the seven arguments as launched. -/
theorem run : θ_run defs (onTc (τ := τ) (main (F := Ideal))) ⟨m, fun _ => 0, ρ⟩ fun r => ∀ c : Dev nD,
      r.2.mem ((c : Thread nD τ).loc main_v6_0) = hiddenOut m c
      ∧ r.2.mem ((c : Thread nD τ).loc main_v6_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (run_blocks m ρ)

end Cert.KernelIdeal.CellValue

end
-- ==== Proof.RefCell.lean ====
/-
  The reference computes the cell step of CellSpec.

  Its gate array adds each bias right after its own projection, `((x·Wxᵀ + bx) + h·Whᵀ) + bh`, which is the
  specification's gate by regrouping the sum. Each of the four 128-column slices then goes through the sigmoid
  written out step by step (negate, exponentiate, add one, divide one by it) or through tanh, and the cell and hidden states
  are formed exactly as the specification writes them. Columns: the slice starting at column `128·g` read at `q`
  is gate column `q + 128·g`.
-/
import proofs.«146025_j60988535603585_1_alg».proof.Proof.Gen.ReferenceIdeal.Read
import proofs.«146025_j60988535603585_1_alg».proof.Proof.CellSpec

noncomputable section

namespace Cert.ReferenceIdeal.RefCell

open Cert.ReferenceIdeal Cert.ReferenceIdeal.Read Cert.LstmCell Idealize.ShloMosaic Idealize.ShloMosaic.ValueIdx

variable (x0 x1 x2 : FVec Ideal S131072x128 .f32) (x3 x5 : FVec Ideal S512x128 .f32) (x4 x6 : FVec Ideal S512 .f32)

/-! ## Where each operation of the gate array reads its operands, at entry (r, j) -/

theorem left_x (r : Fin 131072) (j : Fin 512) (k : Fin 128) : lidx_main_v1 (ix2 r j) k = ix2 r k :=
  funext fun a => by match a with | ⟨0, _⟩ => rfl | ⟨1, _⟩ => rfl
theorem right_wx (r : Fin 131072) (j : Fin 512) (k : Fin 128) : idx_main_v0 (ridx_main_v1 (ix2 r j) k) = ix2 j k :=
  funext fun a => by match a with | ⟨0, _⟩ => rfl | ⟨1, _⟩ => rfl
theorem left_h (r : Fin 131072) (j : Fin 512) (k : Fin 128) : lidx_main_v6 (ix2 r j) k = ix2 r k :=
  funext fun a => by match a with | ⟨0, _⟩ => rfl | ⟨1, _⟩ => rfl
theorem right_wh (r : Fin 131072) (j : Fin 512) (k : Fin 128) : idx_main_v5 (ridx_main_v6 (ix2 r j) k) = ix2 j k :=
  funext fun a => by match a with | ⟨0, _⟩ => rfl | ⟨1, _⟩ => rfl
theorem at_bx (r : Fin 131072) (j : Fin 512) : idx_main_v2 (idx_main_v3 (ix2 r j)) = ix1 j :=
  funext fun a => by match a with | ⟨0, _⟩ => rfl
theorem at_bh (r : Fin 131072) (j : Fin 512) : idx_main_v8 (idx_main_v9 (ix2 r j)) = ix1 j :=
  funext fun a => by match a with | ⟨0, _⟩ => rfl

/-- The reference's 131072×512 gate array is the specification's gate, entry by entry. -/
theorem gates_eq (r : Fin 131072) (j : Fin 512) :
    val_main_v10 (F := Ideal) x0 x1 x3 x4 x5 x6 (ix2 r j) = gate x0 x1 x3 x5 x4 x6 r j := by
  refine Eq.trans ?_ (gate_interleaved x0 x1 x3 x5 x4 x6 r j)
  rw [val_main_v10_apply, val_main_v7_apply, val_main_v4_apply, val_main_v1_apply, val_main_v3_apply, val_main_v2_apply,
    val_main_v6_apply, val_main_v9_apply, val_main_v8_apply]
  simp only [val_main_v0_apply, val_main_v5_apply, left_x, right_wx, left_h, right_wh, at_bx, at_bh, Ideal.addf_def]

/-! ## The four slices: the one starting at column `128·g`, read at (r, q), is gate column `q + 128·g` of row r -/

theorem slice0 (r : Fin 131072) (q : Fin 128) :
    val_main_v11 (F := Ideal) x0 x1 x3 x4 x5 x6 (ix2 r q) = gate x0 x1 x3 x5 x4 x6 r (col 0 q) := by
  have e : idx_main_v11 (ix2 r q) = ix2 r (col 0 q) := funext fun a => Fin.ext (by
    match a with | ⟨0, _⟩ => rfl | ⟨1, _⟩ => show q.val = q.val + 128 * 0; omega)
  rw [val_main_v11_apply, e, gates_eq]
theorem slice1 (r : Fin 131072) (q : Fin 128) :
    val_main_v12 (F := Ideal) x0 x1 x3 x4 x5 x6 (ix2 r q) = gate x0 x1 x3 x5 x4 x6 r (col 1 q) := by
  have e : idx_main_v12 (ix2 r q) = ix2 r (col 1 q) := funext fun a => Fin.ext (by
    match a with | ⟨0, _⟩ => rfl | ⟨1, _⟩ => show 128 + q.val = q.val + 128 * 1; omega)
  rw [val_main_v12_apply, e, gates_eq]
theorem slice2 (r : Fin 131072) (q : Fin 128) :
    val_main_v13 (F := Ideal) x0 x1 x3 x4 x5 x6 (ix2 r q) = gate x0 x1 x3 x5 x4 x6 r (col 2 q) := by
  have e : idx_main_v13 (ix2 r q) = ix2 r (col 2 q) := funext fun a => Fin.ext (by
    match a with | ⟨0, _⟩ => rfl | ⟨1, _⟩ => show 256 + q.val = q.val + 128 * 2; omega)
  rw [val_main_v13_apply, e, gates_eq]
theorem slice3 (r : Fin 131072) (q : Fin 128) :
    val_main_v14 (F := Ideal) x0 x1 x3 x4 x5 x6 (ix2 r q) = gate x0 x1 x3 x5 x4 x6 r (col 3 q) := by
  have e : idx_main_v14 (ix2 r q) = ix2 r (col 3 q) := funext fun a => Fin.ext (by
    match a with | ⟨0, _⟩ => rfl | ⟨1, _⟩ => show 384 + q.val = q.val + 128 * 3; omega)
  rw [val_main_v14_apply, e, gates_eq]

/-! ## The three sigmoids, written out on the host, and the candidate's tanh -/

theorem input_gate (r : Fin 131072) (q : Fin 128) :
    val_main_v20 (F := Ideal) x0 x1 x3 x4 x5 x6 (ix2 r q) = Ideal.logistic (gate x0 x1 x3 x5 x4 x6 r (col 0 q)) := by
  rw [val_main_v20_apply, val_main_v19_apply, val_main_cst_0_apply, val_main_v18_apply, val_main_v17_apply, val_main_cst_apply,
    val_main_v16_apply, val_main_v15_apply, slice0]
  exact sigmoid_expanded _
theorem forget_gate (r : Fin 131072) (q : Fin 128) :
    val_main_v26 (F := Ideal) x0 x1 x3 x4 x5 x6 (ix2 r q) = Ideal.logistic (gate x0 x1 x3 x5 x4 x6 r (col 1 q)) := by
  rw [val_main_v26_apply, val_main_v25_apply, val_main_cst_2_apply, val_main_v24_apply, val_main_v23_apply, val_main_cst_1_apply,
    val_main_v22_apply, val_main_v21_apply, slice1]
  exact sigmoid_expanded _
theorem output_gate (r : Fin 131072) (q : Fin 128) :
    val_main_v33 (F := Ideal) x0 x1 x3 x4 x5 x6 (ix2 r q) = Ideal.logistic (gate x0 x1 x3 x5 x4 x6 r (col 3 q)) := by
  rw [val_main_v33_apply, val_main_v32_apply, val_main_cst_4_apply, val_main_v31_apply, val_main_v30_apply, val_main_cst_3_apply,
    val_main_v29_apply, val_main_v28_apply, slice3]
  exact sigmoid_expanded _
theorem candidate (r : Fin 131072) (q : Fin 128) :
    val_main_v27 (F := Ideal) x0 x1 x3 x4 x5 x6 (ix2 r q) = Ideal.tanh (gate x0 x1 x3 x5 x4 x6 r (col 2 q)) := by
  rw [val_main_v27_apply, slice2]
  rfl

/-! ## The two results -/

/-- The reference's new cell state is the specification's. -/
theorem cell_eq : val_main_v36 (F := Ideal) x0 x1 x2 x3 x4 x5 x6 = cell x0 x1 x2 x3 x5 x4 x6 := by
  funext i
  obtain ⟨r, q, rfl⟩ : ∃ (r : Fin 131072) (q : Fin 128), i = ix2 r q := ⟨i 0, i 1, eq_ix2 i⟩
  rw [val_main_v36_apply, val_main_v34_apply, val_main_v35_apply, forget_gate, input_gate, candidate]
  rfl

/-- The reference's new hidden state is the specification's. -/
theorem hidden_eq : val_main_v38 (F := Ideal) x0 x1 x2 x3 x4 x5 x6 = hidden x0 x1 x2 x3 x5 x4 x6 := by
  funext i
  obtain ⟨r, q, rfl⟩ : ∃ (r : Fin 131072) (q : Fin 128), i = ix2 r q := ⟨i 0, i 1, eq_ix2 i⟩
  rw [val_main_v38_apply, val_main_v37_apply, output_gate, cell_eq]
  rfl

end Cert.ReferenceIdeal.RefCell

end
-- ==== Proof.lean ====
/-
  An LSTM cell step, tiled over the batch, computes what the plain formula computes.

  The kernel walks the 131072 batch rows in 64 blocks of 2048. For each block it multiplies the rows of `x` and of
  `h` by the transposed weight matrices (the operands narrowed to half width, which at the ideal values changes
  nothing), adds the two products and then the summed bias row, cuts the 512 gate columns into four groups of 128,
  applies the sigmoid to the input, forget and output groups and tanh to the candidate group, and stores
  `c' = f·c + i·g` and `h' = o·tanh c'`. The reference forms `x·Wxᵀ + bx + h·Whᵀ + bh` on the whole batch, splits
  it the same way and writes the sigmoid out as `1 / (1 + e^(−t))`.

  Over the extended reals the two agree entry by entry: the four summands of a gate may be regrouped freely
  (addition is commutative and associative even at the infinities, so the inputs' finiteness is never used), a
  product into a zero accumulator is the plain sum over the contracted axis on both sides, the written-out sigmoid
  is the sigmoid including its limits at ±∞, and the row blocks tile the batch exactly. CellSpec states the
  common function; RefCell shows the reference computes it; GatePayload, PointValue, WindowArrays and CellValue
  show the kernel's two result arrays end holding it. Both programs leave their arguments as they found them, and
  the kernel's idealization rewrote nothing, so there is nothing to preserve beyond the text itself.
-/
import proofs.«146025_j60988535603585_1_alg».proof.Defs
import proofs.«146025_j60988535603585_1_alg».proof.Proof.Gen.Kernel
import proofs.«146025_j60988535603585_1_alg».proof.Proof.Gen.Kernel.Skeleton
import proofs.«146025_j60988535603585_1_alg».proof.Proof.Gen.Kernel.Launch
import proofs.«146025_j60988535603585_1_alg».proof.Proof.Gen.Kernel.Points
import proofs.«146025_j60988535603585_1_alg».proof.Proof.Gen.Kernel.Frame
import proofs.«146025_j60988535603585_1_alg».proof.Proof.Gen.KernelIdeal
import proofs.«146025_j60988535603585_1_alg».proof.Proof.Gen.KernelIdeal.Skeleton
import proofs.«146025_j60988535603585_1_alg».proof.Proof.Gen.KernelIdeal.Launch
import proofs.«146025_j60988535603585_1_alg».proof.Proof.Gen.KernelIdeal.Points
import proofs.«146025_j60988535603585_1_alg».proof.Proof.Gen.KernelIdeal.Frame
import proofs.«146025_j60988535603585_1_alg».proof.Proof.Gen.ReferenceIdeal
import proofs.«146025_j60988535603585_1_alg».proof.Proof.Gen.Pre_finite_inputs
import proofs.«146025_j60988535603585_1_alg».proof.Proof.Gen.KernelIdeal.Value
import proofs.«146025_j60988535603585_1_alg».proof.Proof.Gen.ReferenceIdeal.Run
import proofs.«146025_j60988535603585_1_alg».proof.Proof.Gen.ReferenceIdeal.Read
import proofs.«146025_j60988535603585_1_alg».proof.Proof.CellValue
import proofs.«146025_j60988535603585_1_alg».proof.Proof.RefCell
import Idealize.ShloMosaic.Adequacy
import Idealize.ShloMosaic.Init

noncomputable section

namespace Cert.Proof

open Idealize.ShloMosaic Idealize.SL.Sem

/-- The kernel program as printed runs to the end and leaves its arguments alone. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- The reference is a straight line of host operations: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- At the ideal values, from memories that agree on the seven arguments, the kernel's first result and the
    reference's first result are both the new hidden state of CellSpec, and their second results both the new
    cell state. -/
theorem algebraic : Cert.algebraic_KernelIdeal_ReferenceIdeal := by
  intro m ρ m' ρ' _ hagree
  refine ⟨fun c => Cert.KernelIdeal.CellValue.hiddenOut m c, fun c => Cert.KernelIdeal.CellValue.cellOut m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6⟩ := hagree c
    refine (Cert.ReferenceIdeal.Read.val_main_v38_eq m' c).trans ((Cert.ReferenceIdeal.RefCell.hidden_eq _ _ _ _ _ _ _).trans ?_)
    unfold Cert.KernelIdeal.CellValue.hiddenOut
    rw [e0, e1, e2, e3, e4, e5, e6]
  · obtain ⟨e0, e1, e2, e3, e4, e5, e6⟩ := hagree c
    refine (Cert.ReferenceIdeal.Read.val_main_v36_eq _ _ _ _ _ _ _).trans ((Cert.ReferenceIdeal.RefCell.cell_eq _ _ _ _ _ _ _).trans ?_)
    unfold Cert.KernelIdeal.CellValue.cellOut
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
